-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4000x400 : Shape := ⟨4, ![4, 16, 4000, 400]⟩
abbrev S_ : Shape := ⟨0, ![]⟩

class Facts : Prop where
  bcast_S_S4x16x4000x400 : S_.BroadcastsInDim S4x16x4000x400 (![] : Fin 0 → Fin S4x16x4000x400.rank)
  reducesTo_S4x16x4000x400_S_d0_1_2_3 : S4x16x4000x400.ReducesTo [0, 1, 2, 3] S_
  h_S_ : 0 < S_.numel

variable [Facts]

def fn {F : FTy → Type} [FloatOps F] (main_arg0 : FVec F S4x16x4000x400 .f32) (main_arg1 : FVec F S4x16x4000x400 .f32) : IVec S_ 1 :=
  let main_v0 : FVec F S4x16x4000x400 .f32 := Host.absf main_arg0
  let main_cst : FVec F S_ .f32 := constant S_ .f32 0x7F800000#32
  let main_v1 : FVec F S4x16x4000x400 .f32 := broadcastInDim S4x16x4000x400 ![] bcast_S_S4x16x4000x400 main_cst
  let main_v2 : IVec S4x16x4000x400 1 := cmpf .olt main_v0 main_v1
  let main_c : IVec S_ 1 := constantI S_ 1 1#1
  let main_v3 : IVec S_ 1 := (fun x v => Host.reduce IntOp.andi x v reducesTo_S4x16x4000x400_S_d0_1_2_3 h_S_) main_v2 main_c
  let main_v4 : FVec F S4x16x4000x400 .f32 := Host.absf main_arg1
  let main_cst_0 : FVec F S_ .f32 := constant S_ .f32 0x7F800000#32
  let main_v5 : FVec F S4x16x4000x400 .f32 := broadcastInDim S4x16x4000x400 ![] bcast_S_S4x16x4000x400 main_cst_0
  let main_v6 : IVec S4x16x4000x400 1 := cmpf .olt main_v4 main_v5
  let main_c_1 : IVec S_ 1 := constantI S_ 1 1#1
  let main_v7 : IVec S_ 1 := (fun x v => Host.reduce IntOp.andi x v reducesTo_S4x16x4000x400_S_d0_1_2_3 h_S_) main_v6 main_c_1
  let main_v8 : IVec S_ 1 := andi main_v3 main_v7
  main_v8
-- ==== Kernel.lean ====
abbrev S4x16x4000x400 : Shape := ⟨4, ![4, 16, 4000, 400]⟩
abbrev S64x4000x400 : Shape := ⟨3, ![64, 4000, 400]⟩
abbrev S64x5 : Shape := ⟨2, ![64, 5]⟩
abbrev S8x400x400 : Shape := ⟨3, ![8, 400, 400]⟩
abbrev S8x5 : Shape := ⟨2, ![8, 5]⟩
abbrev S8x400 : Shape := ⟨2, ![8, 400]⟩
abbrev S8x400x1 : Shape := ⟨3, ![8, 400, 1]⟩
abbrev S8x1 : Shape := ⟨2, ![8, 1]⟩
abbrev S8x1x1 : Shape := ⟨3, ![8, 1, 1]⟩
abbrev S64x1 : Shape := ⟨2, ![64, 1]⟩
abbrev S64 : Shape := ⟨1, ![64]⟩
abbrev S_ : Shape := ⟨0, ![]⟩

abbrev nBuf : Space → Nat
  | .hbm => 37
  | .vmem => 7
  | .smem => 0
  | _ => 0

abbrev bufTy : (tb : Table) → Fin (tcTables nBuf tb) → BufTy
  | .hbm, ⟨0, _⟩ => ⟨S4x16x4000x400, .f32⟩
  | .hbm, ⟨1, _⟩ => ⟨S4x16x4000x400, .f32⟩
  | .hbm, ⟨2, _⟩ => ⟨S64x4000x400, .f32⟩
  | .hbm, ⟨3, _⟩ => ⟨S64x4000x400, .f32⟩
  | .hbm, ⟨4, _⟩ => ⟨S64x5, .f32⟩
  | .hbm, ⟨5, _⟩ => ⟨S64x1, .f32⟩
  | .hbm, ⟨6, _⟩ => ⟨S64, .f32⟩
  | .hbm, ⟨7, _⟩ => ⟨S64x1, .f32⟩
  | .hbm, ⟨8, _⟩ => ⟨S64, .f32⟩
  | .hbm, ⟨9, _⟩ => ⟨S64x1, .f32⟩
  | .hbm, ⟨10, _⟩ => ⟨S64, .f32⟩
  | .hbm, ⟨11, _⟩ => ⟨S64x1, .f32⟩
  | .hbm, ⟨12, _⟩ => ⟨S64, .f32⟩
  | .hbm, ⟨13, _⟩ => ⟨S64x1, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S8x400x400, .f32⟩
  | .local _ .vmem, ⟨1, _⟩ => ⟨S8x400x400, .f32⟩
  | .local _ .vmem, ⟨2, _⟩ => ⟨S8x400x400, .f32⟩
  | .local _ .vmem, ⟨3, _⟩ => ⟨S8x400x400, .f32⟩
  | .local _ .vmem, ⟨4, _⟩ => ⟨S8x5, .f32⟩
  | .local _ .vmem, ⟨5, _⟩ => ⟨S8x5, .f32⟩
  | .local _ .vmem, ⟨6, _⟩ => ⟨S8x5, .f32⟩
  | _, _ => ⟨S4x16x4000x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_v30 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v41 : BitVec 1 := Scalar.cmpi .eq arg1 c9_i32
  let v42 : BitVec 32 := Scalar.extui v41
  let c0_i32_19 : BitVec 32 := 0#32
  let v43 : BitVec 1 := Scalar.cmpi .ne v42 c0_i32_19
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x400x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x400x400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x16x4000x400_S64x4000x400 : S4x16x4000x400.ShapeCasts S64x4000x400
  inb_S8x5_S8x5_0_0 : ∀ a, (![0, 0] : Fin 2 → Nat) a + S8x5.size a ≤ S8x5.size a
  h_S8x5 : 0 < S8x5.numel
  shapeCasts_S8x5_S8x5 : S8x5.ShapeCasts S8x5
  inb_S8x400x400_S8x400x400_0_0_0 : ∀ a, (![0, 0, 0] : Fin 3 → Nat) a + S8x400x400.size a ≤ S8x400x400.size a
  h_S8x400x400 : 0 < S8x400x400.numel
  shapeCasts_S8x400x400_S8x400x400 : S8x400x400.ShapeCasts S8x400x400
  reduces_S8x400x400_S8x400 : S8x400x400.Reduces [2] S8x400
  shapeCasts_S8x400_S8x400x1 : S8x400.ShapeCasts S8x400x1
  reduces_S8x400x1_S8x1 : S8x400x1.Reduces [1] S8x1
  shapeCasts_S8x1_S8x1x1 : S8x1.ShapeCasts S8x1x1
  shapeCasts_S8x1x1_S8x1 : S8x1x1.ShapeCasts S8x1
  concatenates_S8x1_S8x1_S8x1_S8x1_S8x1_S8x5_d1 : Shape.Concatenates [S8x1, S8x1, S8x1, S8x1, S8x1] S8x5 1
  slices_S64x5_S64x1_0_0 : S64x5.Slices ![0, 0] S64x1
  shapeCasts_S64x1_S64 : S64x1.ShapeCasts S64
  slices_S64x5_S64x1_0_1 : S64x5.Slices ![0, 1] S64x1
  slices_S64x5_S64x1_0_2 : S64x5.Slices ![0, 2] S64x1
  slices_S64x5_S64x1_0_3 : S64x5.Slices ![0, 3] S64x1
  slices_S64x5_S64x1_0_4 : S64x5.Slices ![0, 4] S64x1
  bcast_S_S64 : S_.BroadcastsInDim S64 (![] : Fin 0 → Fin S64.rank)
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x400x400.size a ≤ S64x4000x400.size a
  hwx0_0 : ∀ i : grid0.Coords, EltTy.bits .f32 = 32 ∨ (Rect.block (s := S64x4000x400) S8x400x400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x400x400.size a ≤ S64x4000x400.size a
  hwx0_1 : ∀ i : grid0.Coords, EltTy.bits .f32 = 32 ∨ (Rect.block (s := S64x4000x400) S8x400x400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x5.size a ≤ S64x5.size a
  hwx0_2 : ∀ i : grid0.Coords, EltTy.bits .f32 = 32 ∨ (Rect.block (s := S64x5) S8x5.size (cc0_transform_2 i) (hinb0_2 i)).WholeWords (EltTy.packing .f32)

variable [Facts₀]

abbrev win0_0 : Pipeline.Window sig grid0 :=
  Pipeline.Window.ofSpec (Memref.whole main_v0) S8x400x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x400x400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x16x4000x400 : Shape := ⟨4, ![4, 16, 4000, 400]⟩
abbrev S_ : Shape := ⟨0, ![]⟩
abbrev S4x16 : Shape := ⟨2, ![4, 16]⟩
abbrev S4x16x1x1 : Shape := ⟨4, ![4, 16, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S4x16x4000x400, .f32⟩
  | .hbm, ⟨1, _⟩ => ⟨S4x16x4000x400, .f32⟩
  | .hbm, ⟨2, _⟩ => ⟨S_, .f32⟩
  | .hbm, ⟨3, _⟩ => ⟨S4x16, .f32⟩
  | .hbm, ⟨4, _⟩ => ⟨S4x16x1x1, .f32⟩
  | .hbm, ⟨5, _⟩ => ⟨S_, .f32⟩
  | .hbm, ⟨6, _⟩ => ⟨S4x16x1x1, .f32⟩
  | .hbm, ⟨7, _⟩ => ⟨S4x16x1x1, .f32⟩
  | .hbm, ⟨8, _⟩ => ⟨S_, .f32⟩
  | .hbm, ⟨9, _⟩ => ⟨S4x16, .f32⟩
  | .hbm, ⟨10, _⟩ => ⟨S4x16x1x1, .f32⟩
  | .hbm, ⟨11, _⟩ => ⟨S_, .f32⟩
  | .hbm, ⟨12, _⟩ => ⟨S4x16x1x1, .f32⟩
  | .hbm, ⟨13, _⟩ => ⟨S4x16x1x1, .f32⟩
  | .hbm, ⟨14, _⟩ => ⟨S4x16x4000x400, .f32⟩
  | .hbm, ⟨15, _⟩ => ⟨S4x16x4000x400, .f32⟩
  | .hbm, ⟨16, _⟩ => ⟨S4x16x4000x400, .f32⟩
  | .hbm, ⟨17, _⟩ => ⟨S4x16x4000x400, .f32⟩
  | .hbm, ⟨18, _⟩ => ⟨S4x16x4000x400, .f32⟩
  | .hbm, ⟨19, _⟩ => ⟨S_, .f32⟩
  | .hbm, ⟨20, _⟩ => ⟨S4x16, .f32⟩
  | .hbm, ⟨21, _⟩ => ⟨S4x16x4000x400, .f32⟩
  | .hbm, ⟨22, _⟩ => ⟨S_, .f32⟩
  | .hbm, ⟨23, _⟩ => ⟨S4x16, .f32⟩
  | .hbm, ⟨24, _⟩ => ⟨S4x16x4000x400, .f32⟩
  | .hbm, ⟨25, _⟩ => ⟨S_, .f32⟩
  | .hbm, ⟨26, _⟩ => ⟨S4x16, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S4x16, .f32⟩
  | .hbm, ⟨31, _⟩ => ⟨S_, .f32⟩
  | .hbm, ⟨32, _⟩ => ⟨S_, .f32⟩
  | .hbm, ⟨33, _⟩ => ⟨S_, .f32⟩
  | _, _ => ⟨S4x16x4000x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  reducesTo_S4x16x4000x400_S4x16_d2_3 : S4x16x4000x400.ReducesTo [2, 3] S4x16
  h_S_ : 0 < S_.numel
  bcast_S4x16_S4x16x1x1_0_1 : S4x16.BroadcastsInDim S4x16x1x1 (![0, 1] : Fin 2 → Fin S4x16x1x1.rank)
  bcast_S_S4x16x1x1 : S_.BroadcastsInDim S4x16x1x1 (![] : Fin 0 → Fin S4x16x1x1.rank)
  bcast_S4x16x1x1_S4x16x4000x400_0_1_2_3 : S4x16x1x1.BroadcastsInDim S4x16x4000x400 (![0, 1, 2, 3] : Fin 4 → Fin S4x16x4000x400.rank)
  reducesTo_S4x16_S_d0_1 : S4x16.ReducesTo [0, 1] S_

variable [Facts₀]

class Facts : Prop extends Facts₀ where

variable [Facts]
-- ==== Proof.Spec.lean ====
/-
  The two closed forms this certificate joins, over the extended reals, as functions of the two argument arrays
  `X0` (synthetic shots) and `X1` (observed shots), each `[4, 16, 4000, 400]`.

  A ROW is one (batch, shot) pair: row `r` of 64 is batch `r / 16`, shot `r % 16`; its PLANE is the 4000 × 400
  (time, receiver) samples of that pair, `N = 1 600 000` of them.

  * The kernel's form (`kLoss`). For each row the five raw statistics
        ∑ x0, ∑ x1, ∑ x0·x1, ∑ x0·x0, ∑ x1·x1
    taken tile by tile (ten tiles of 400 time samples, each tile summed over receivers first and then over its
    time samples, the tiles added up from zero), then
        cross = S₂ − S₀·S₁ / N,  E₁ = S₄ − S₁·S₁ / N,  E₀ = S₃ − S₀·S₀ / N,
    and the loss `−(0 + ∑ᵣ cross / (√E₁ · √E₀))`.
  * The reference's form (`rLoss`). For each row the two means `(0 + ∑ x) / N`, the centred planes `x − mean`,
        cross = 0 + ∑ d₁·d₀,  E₁ = 0 + ∑ d₁·d₁,  E₀ = 0 + ∑ d₀·d₀,
    and the same loss.
  Division, square root and the literals are the ideal instance's own (`Ideal.div`, `Ideal.sqrt`, `Ideal.ofBits`).
-/
import Idealize.ShloMosaic.PureOps.Ideal.Laws
import Idealize.ShloMosaic.Lib.ValueIdx

noncomputable section

namespace Cert.Stats

open Idealize.ShloMosaic Idealize.ShloMosaic.ValueIdx

/-- The argument arrays' shape. -/
abbrev SIn : Shape := ⟨4, ![4, 16, 4000, 400]⟩

/-- Entry `(u, v)` of row `r`'s plane, as an index of an argument array. -/
def planeIdx (r : Fin 64) (u : Fin 4000) (v : Fin 400) : SIn.Idx :=
  ix4 (⟨r.val / 16, by have := r.isLt; omega⟩ : Fin 4) (⟨r.val % 16, Nat.mod_lt _ (by decide)⟩ : Fin 16) u v

/-- Time sample `a` of tile `s`: sample `400 s + a` of the 4000. -/
def tileRow (s : Fin 10) (a : Fin 400) : Fin 4000 :=
  ⟨400 * s.val + a.val, by have := s.isLt; have := a.isLt; omega⟩

/-- The f32 literals `+0.0` and `1.6e6` as the programs spell them. -/
abbrev zeroE : EReal := Ideal.ofBits .f32 0x00000000#32
abbrev nE : EReal := Ideal.ofBits .f32 0x49C35000#32

/-- The five per-sample summands: `x0`, `x1`, `x0·x1`, `x0·x0`, `x1·x1`. -/
def stat (j : Fin 5) (a b : EReal) : EReal :=
  match j with
  | ⟨0, _⟩ => a
  | ⟨1, _⟩ => b
  | ⟨2, _⟩ => a * b
  | ⟨3, _⟩ => a * a
  | ⟨4, _⟩ => b * b

/-- One row's term of the loss from its cross term and its two energies. -/
def rowTerm (cross e1 e0 : EReal) : EReal := Ideal.div cross (Ideal.sqrt e1 * Ideal.sqrt e0)

/-! ## The kernel's form -/

/-- Statistic `j` of row `r` as the kernel accumulates it: zero, plus tile after tile the tile's double sum. -/
def kStat (X0 X1 : SIn.Idx → EReal) (r : Fin 64) (j : Fin 5) : EReal :=
  zeroE + ∑ s : Fin 10, ∑ a : Fin 400, ∑ b : Fin 400,
    stat j (X0 (planeIdx r (tileRow s a) b)) (X1 (planeIdx r (tileRow s a) b))

/-- Row `r`'s term from the raw statistics. -/
def kRow (X0 X1 : SIn.Idx → EReal) (r : Fin 64) : EReal :=
  rowTerm (kStat X0 X1 r 2 - Ideal.div (kStat X0 X1 r 0 * kStat X0 X1 r 1) nE)
    (kStat X0 X1 r 4 - Ideal.div (kStat X0 X1 r 1 * kStat X0 X1 r 1) nE)
    (kStat X0 X1 r 3 - Ideal.div (kStat X0 X1 r 0 * kStat X0 X1 r 0) nE)

/-- The kernel's loss. -/
def kLoss (X0 X1 : SIn.Idx → EReal) : EReal := -(zeroE + ∑ r : Fin 64, kRow X0 X1 r)

/-! ## The reference's form -/

/-- The sum of `g` over row `r`'s plane, from zero. -/
def planeSum (g : SIn.Idx → EReal) (r : Fin 64) : EReal :=
  zeroE + ∑ u : Fin 4000, ∑ v : Fin 400, g (planeIdx r u v)

/-- `X` centred by row `r`'s mean. -/
def centered (X : SIn.Idx → EReal) (r : Fin 64) (i : SIn.Idx) : EReal := X i - Ideal.div (planeSum X r) nE

/-- Row `r`'s term from the centred planes. -/
def rRow (X0 X1 : SIn.Idx → EReal) (r : Fin 64) : EReal :=
  rowTerm (planeSum (fun i => centered X1 r i * centered X0 r i) r)
    (planeSum (fun i => centered X1 r i * centered X1 r i) r)
    (planeSum (fun i => centered X0 r i * centered X0 r i) r)

/-- The reference's loss. -/
def rLoss (X0 X1 : SIn.Idx → EReal) : EReal := -(zeroE + ∑ r : Fin 64, rRow X0 X1 r)

end Cert.Stats

end
-- ==== Proof.Finite.lean ====
/-
  From the precondition to real numbers: when every entry of both argument arrays is strictly below +∞ in absolute
  value, every entry is a real number, so each array is the coercion of a real-valued array.

  The predicate is the conjunction of two "for all entries" tests, one per array; each test compares max(a, −a)
  with the f32 word 0x7F800000, which is +∞. An extended real a with max(a, −a) < +∞ is neither +∞ (then the
  maximum is +∞) nor −∞ (then −a = +∞), so it is a real.
-/
import proofs.«130764_j17222818857434_1_alg».proof.Pre_finite_inputs
import proofs.«130764_j17222818857434_1_alg».proof.Proof.Spec
import Idealize.ShloMosaic.Lib.ReduceAll

noncomputable section

namespace Cert.Stats

open Idealize.ShloMosaic Idealize.ShloMosaic.ValueIdx

/-- The f32 word `0x7F800000` (sign 0, exponent all ones, fraction 0) is `+∞`. -/
theorem posInf_eq_top : (Ideal.ofBits .f32 0x7F800000#32 : EReal) = ⊤ := by
  simp [Ideal.ofBits, Ideal.ieee]

/-- An extended real whose absolute value `max a (-a)` compares strictly below `+∞` is a real number. -/
theorem real_of_abs_lt_posInf (a : EReal)
    (h : Ideal.cmp .olt (max a (-a)) (Ideal.ofBits .f32 0x7F800000#32) = 1#1) : ∃ r : ℝ, a = (r : EReal) := by
  rw [posInf_eq_top] at h
  induction a using EReal.rec with
  | bot => simp [Ideal.cmp] at h
  | top => simp [Ideal.cmp] at h
  | coe r => exact ⟨r, rfl⟩

/-- The rank-0 shape has exactly one index. -/
instance subsingleton_scalarIdx : Subsingleton Cert.Pre_finite_inputs.S_.Idx :=
  ⟨fun a b => funext fun d => d.elim0⟩

/-- Both argument arrays are real-valued when the finiteness predicate is all ones. -/
theorem finite_of_pre [Cert.Pre_finite_inputs.Facts] (A0 A1 : SIn.Idx → EReal)
    (h : Cert.Pre_finite_inputs.fn (F := Ideal) A0 A1 = fun _ => 1#1) :
    ∃ x0 x1 : SIn.Idx → ℝ, A0 = (fun i => ((x0 i : ℝ) : EReal)) ∧ A1 = (fun i => ((x1 i : ℝ) : EReal)) := by
  -- the predicate at its one index, unfolded: the `and` of the two "for all entries" reductions
  have h0 := congrFun h ValueIdx.ix0
  dsimp only [Cert.Pre_finite_inputs.fn] at h0
  obtain ⟨ha, hb⟩ := IntOp.andi_eq_one.1 h0
  -- a reduction by `and` over all four axes that is 1 had a 1 at every entry: |A i| < +∞ there
  have e0 : ∀ i, ∃ r : ℝ, A0 i = (r : EReal) := fun i =>
    real_of_abs_lt_posInf (A0 i) (Host.reduce_andi_all _ _ _ _ _ ha i)
  have e1 : ∀ i, ∃ r : ℝ, A1 i = (r : EReal) := fun i =>
    real_of_abs_lt_posInf (A1 i) (Host.reduce_andi_all _ _ _ _ _ hb i)
  -- choose the real value of each entry
  choose x0 hx0 using e0
  choose x1 hx1 using e1
  exact ⟨x0, x1, funext hx0, funext hx1⟩

end Cert.Stats

end
-- ==== Proof.RefValue.lean ====
/-
  The reference's result, read operation by operation at the ideal instance, is the closed form `rLoss`:
  the two-axis sums over (time, receiver) are plane sums of the row, the broadcasts of the means read the row's
  mean at every sample of the row, and the last sum over (batch, shot) is the sum over the 64 rows.

  The road. A sum over axes 2 and 3 of a `[4, 16, 4000, 400]` array at the result index `q = (b, s)` adds up the
  elements whose index drops to `q`; those indices are exactly the image of the (time, receiver) pairs under
  `(u, v) ↦ (b, s, u, v)`, so the sum is the double sum over the plane (`ref_hostReduceAdd_plane`). Row `r` of the 64
  is the pair `(r / 16, r % 16)` (`refRowIdx`, a bijection: `refRowEquiv`), and the plane over that pair is row `r`'s
  plane, so each of the five two-axis sums at `refRowIdx r` is a `planeSum … r`. The broadcast means read, at a
  sample of row `r`'s plane, the mean of row `r`; the differences are the centred planes; the quotient at
  `refRowIdx r` is `rRow … r`; and the last sum, over every (batch, shot) pair, is re-indexed over the 64 rows.
  Nothing here uses finiteness of the data: only unfolding, re-indexing of finite sums and congruence.
-/
import proofs.«130764_j17222818857434_1_alg».proof.Proof.Gen.ReferenceIdeal.Read
import proofs.«130764_j17222818857434_1_alg».proof.Proof.Spec
import Idealize.ShloMosaic.Lib.IdealHost
import Idealize.ShloMosaic.Lib.ValueIdx

noncomputable section

namespace Cert.Stats

open Idealize.ShloMosaic Idealize.ShloMosaic.ValueIdx
open Cert.ReferenceIdeal Cert.ReferenceIdeal.Gen Cert.ReferenceIdeal.Read

/-! ## A sum over (time, receiver) is a double sum over the plane -/

/-- Dropping axes 2 and 3 of `(a, b, u, v)` leaves `(a, b)`. -/
theorem ref_drop_ix4 (a : Fin 4) (b : Fin 16) (u : Fin 4000) (v : Fin 400) :
    reducesTo_S4x16x4000x400_S4x16_d2_3.drop (ix4 a b u v) = ix2 a b := by
  funext c
  match c with
  | ⟨0, _⟩ => rfl
  | ⟨1, _⟩ => rfl

/-- An index that drops to `q` is `q`'s two coordinates followed by its own last two. -/
theorem ref_eq_ix4_of_drop (i : SIn.Idx) (q : S4x16.Idx) (h : reducesTo_S4x16x4000x400_S4x16_d2_3.drop i = q) :
    i = ix4 (q 0) (q 1) (i 2) (i 3) := by
  subst h
  funext a
  match a with
  | ⟨0, _⟩ => rfl
  | ⟨1, _⟩ => rfl
  | ⟨2, _⟩ => rfl
  | ⟨3, _⟩ => rfl

/-- The plane over `q`: the (time, receiver) pairs as indices of the argument array, one index per pair. -/
def refPlaneEmb (q : S4x16.Idx) : Fin 4000 × Fin 400 ↪ SIn.Idx :=
  ⟨fun p => ix4 (q 0) (q 1) p.1 p.2, fun p p' h => Prod.ext (congrFun h 2) (congrFun h 3)⟩

/-- The indices that drop to `q` are exactly the plane over `q`. -/
theorem ref_filter_drop_plane (q : S4x16.Idx) :
    Finset.univ.filter (fun i : SIn.Idx => reducesTo_S4x16x4000x400_S4x16_d2_3.drop i = q)
      = Finset.univ.map (refPlaneEmb q) := by
  ext i
  simp only [Finset.mem_filter, Finset.mem_univ, true_and, Finset.mem_map, refPlaneEmb, Function.Embedding.coeFn_mk]
  constructor
  · intro h
    exact ⟨(i 2, i 3), (ref_eq_ix4_of_drop i q h).symm⟩
  · rintro ⟨p, rfl⟩
    exact (ref_drop_ix4 (q 0) (q 1) p.1 p.2).trans (eq_ix2 q).symm

/-- The sum over axes 2 and 3 at `q`: the initial value plus the double sum over the plane over `q`. -/
theorem ref_hostReduceAdd_plane (x : SIn.Idx → EReal) (init : EReal) (q : S4x16.Idx) :
    Ideal.hostReduceAdd reducesTo_S4x16x4000x400_S4x16_d2_3 x init q
      = init + ∑ u : Fin 4000, ∑ v : Fin 400, x (ix4 (q 0) (q 1) u v) := by
  unfold Ideal.hostReduceAdd
  rw [ref_filter_drop_plane, Finset.sum_map, Fintype.sum_prod_type]
  rfl

/-! ## The rows -/

/-- Row `r`'s index among the per-row results: its (batch, shot) pair `(r / 16, r % 16)`. -/
abbrev refRowIdx (r : Fin 64) : S4x16.Idx :=
  ix2 (⟨r.val / 16, by have := r.isLt; omega⟩ : Fin 4) (⟨r.val % 16, Nat.mod_lt _ (by decide)⟩ : Fin 16)

/-- The 64 rows are the (batch, shot) pairs: row `16 b + s` is the pair `(b, s)`. -/
def refRowEquiv : Fin 64 ≃ S4x16.Idx where
  toFun := refRowIdx
  invFun j := ⟨16 * (j 0).val + (j 1).val, by have := idx2_lt0 j; have := idx2_lt1 j; omega⟩
  left_inv r := Fin.ext (by show 16 * (r.val / 16) + r.val % 16 = r.val; omega)
  right_inv j := by
    have h0 := idx2_lt0 j
    have h1 := idx2_lt1 j
    funext a
    match a with
    | ⟨0, _⟩ => exact Fin.ext (by show (16 * (j 0).val + (j 1).val) / 16 = (j 0).val; omega)
    | ⟨1, _⟩ => exact Fin.ext (by show (16 * (j 0).val + (j 1).val) % 16 = (j 1).val; omega)

/-- A sum over (time, receiver) read at row `r`: the initial value plus the double sum over row `r`'s plane
    (the plane over `(r / 16, r % 16)` is `planeIdx r`, coordinate by coordinate). -/
theorem ref_reduce_row (x : SIn.Idx → EReal) (init : (⟨0, ![]⟩ : Shape).Idx → EReal) (r : Fin 64) :
    Host.reduceAdd (F := Ideal) (φ := .f32) x init reducesTo_S4x16x4000x400_S4x16_d2_3 h_S_ (refRowIdx r)
      = init (Shape.Idx.first h_S_) + ∑ u : Fin 4000, ∑ v : Fin 400, x (planeIdx r u v) := by
  rw [hostReduceAdd_apply, ref_hostReduceAdd_plane]
  rfl

/-! ## The means -/

/-- The first two-axis sum at row `r`: the sum of `X0` over row `r`'s plane. -/
theorem ref_v0_row (X0 : SIn.Idx → EReal) (r : Fin 64) :
    val_main_v0 (F := Ideal) X0 (refRowIdx r) = planeSum X0 r := by
  unfold val_main_v0
  rw [ref_reduce_row]
  rfl

/-- The second two-axis sum at row `r`: the sum of `X1` over row `r`'s plane. -/
theorem ref_v4_row (X1 : SIn.Idx → EReal) (r : Fin 64) :
    val_main_v4 (F := Ideal) X1 (refRowIdx r) = planeSum X1 r := by
  unfold val_main_v4
  rw [ref_reduce_row]
  rfl

/-- The two broadcasts of `X0`'s means read, at a sample of row `r`'s plane, the entry of row `r`. -/
theorem ref_idx_v1_v8_plane (r : Fin 64) (u : Fin 4000) (v : Fin 400) :
    idx_main_v1 (idx_main_v8 (planeIdx r u v)) = refRowIdx r := by
  funext a
  match a with
  | ⟨0, _⟩ => rfl
  | ⟨1, _⟩ => rfl

/-- The two broadcasts of `X1`'s means read, at a sample of row `r`'s plane, the entry of row `r`. -/
theorem ref_idx_v5_v10_plane (r : Fin 64) (u : Fin 4000) (v : Fin 400) :
    idx_main_v5 (idx_main_v10 (planeIdx r u v)) = refRowIdx r := by
  funext a
  match a with
  | ⟨0, _⟩ => rfl
  | ⟨1, _⟩ => rfl

/-- The broadcast mean of `X0` at a sample of row `r`'s plane is row `r`'s mean. -/
theorem ref_v8_plane (X0 : SIn.Idx → EReal) (r : Fin 64) (u : Fin 4000) (v : Fin 400) :
    val_main_v8 (F := Ideal) X0 (planeIdx r u v) = Ideal.div (planeSum X0 r) nE := by
  rw [val_main_v8_apply, val_main_v3_apply, val_main_v1_apply, ref_idx_v1_v8_plane, ref_v0_row, val_main_v2_apply,
    val_main_cst_0_apply]
  rfl

/-- The broadcast mean of `X1` at a sample of row `r`'s plane is row `r`'s mean. -/
theorem ref_v10_plane (X1 : SIn.Idx → EReal) (r : Fin 64) (u : Fin 4000) (v : Fin 400) :
    val_main_v10 (F := Ideal) X1 (planeIdx r u v) = Ideal.div (planeSum X1 r) nE := by
  rw [val_main_v10_apply, val_main_v7_apply, val_main_v5_apply, ref_idx_v5_v10_plane, ref_v4_row, val_main_v6_apply,
    val_main_cst_2_apply]
  rfl

/-! ## The centred planes -/

/-- `X0` minus its broadcast mean, at a sample of row `r`'s plane, is `X0` centred by row `r`'s mean. -/
theorem ref_v9_plane (X0 : SIn.Idx → EReal) (r : Fin 64) (u : Fin 4000) (v : Fin 400) :
    val_main_v9 (F := Ideal) X0 (planeIdx r u v) = centered X0 r (planeIdx r u v) := by
  rw [val_main_v9_apply, ref_v8_plane]
  rfl

/-- `X1` minus its broadcast mean, at a sample of row `r`'s plane, is `X1` centred by row `r`'s mean. -/
theorem ref_v11_plane (X1 : SIn.Idx → EReal) (r : Fin 64) (u : Fin 4000) (v : Fin 400) :
    val_main_v11 (F := Ideal) X1 (planeIdx r u v) = centered X1 r (planeIdx r u v) := by
  rw [val_main_v11_apply, ref_v10_plane]
  rfl

/-! ## The cross term and the two energies -/

/-- The cross term of row `r`: the plane sum of the product of the two centred planes. -/
theorem ref_v13_row (X0 X1 : SIn.Idx → EReal) (r : Fin 64) :
    val_main_v13 (F := Ideal) X0 X1 (refRowIdx r) = planeSum (fun i => centered X1 r i * centered X0 r i) r := by
  unfold val_main_v13
  rw [ref_reduce_row]
  refine congrArg (fun z => zeroE + z) (Finset.sum_congr rfl fun u _ => Finset.sum_congr rfl fun v _ => ?_)
  rw [val_main_v12_apply, ref_v11_plane, ref_v9_plane]
  rfl

/-- The energy of `X1` on row `r`: the plane sum of its centred plane's square. -/
theorem ref_v15_row (X1 : SIn.Idx → EReal) (r : Fin 64) :
    val_main_v15 (F := Ideal) X1 (refRowIdx r) = planeSum (fun i => centered X1 r i * centered X1 r i) r := by
  unfold val_main_v15
  rw [ref_reduce_row]
  refine congrArg (fun z => zeroE + z) (Finset.sum_congr rfl fun u _ => Finset.sum_congr rfl fun v _ => ?_)
  rw [val_main_v14_apply, ref_v11_plane]
  rfl

/-- The energy of `X0` on row `r`: the plane sum of its centred plane's square. -/
theorem ref_v17_row (X0 : SIn.Idx → EReal) (r : Fin 64) :
    val_main_v17 (F := Ideal) X0 (refRowIdx r) = planeSum (fun i => centered X0 r i * centered X0 r i) r := by
  unfold val_main_v17
  rw [ref_reduce_row]
  refine congrArg (fun z => zeroE + z) (Finset.sum_congr rfl fun u _ => Finset.sum_congr rfl fun v _ => ?_)
  rw [val_main_v16_apply, ref_v9_plane]
  rfl

/-! ## The rows' terms and the loss -/

/-- The quotient at row `r` is row `r`'s term of the reference's form: the cross term over the product of the two
    energies' square roots. -/
theorem ref_v21_row (X0 X1 : SIn.Idx → EReal) (r : Fin 64) :
    val_main_v21 (F := Ideal) X0 X1 (refRowIdx r) = rRow X0 X1 r := by
  rw [val_main_v21_apply, val_main_v20_apply, val_main_v18_apply, val_main_v19_apply, ref_v13_row, ref_v15_row,
    ref_v17_row]
  rfl

/-- The reference's result term is `rLoss` of the two argument arrays. -/
theorem ref_value (X0 X1 : SIn.Idx → EReal) :
    Cert.ReferenceIdeal.Read.val_main_v23 (F := Ideal) X0 X1 = fun _ => rLoss X0 X1 := by
  funext i
  rw [val_main_v23_apply, val_main_v22_apply, ← Equiv.sum_comp refRowEquiv]
  show -(zeroE + ∑ r : Fin 64, val_main_v21 (F := Ideal) X0 X1 (refRowIdx r)) = -(zeroE + ∑ r : Fin 64, rRow X0 X1 r)
  refine congrArg (fun z => -(zeroE + z)) (Finset.sum_congr rfl fun r _ => ?_)
  exact ref_v21_row X0 X1 r

end Cert.Stats

end
-- ==== Proof.CenteredSums.lean ====
/-
  The one algebraic law of this certificate, over the real numbers.

  For two finite families `x`, `y` of reals indexed by a set of `N` elements, with means `x̄ = (∑ x) / N` and
  `ȳ = (∑ y) / N`, the sum of products of the centred families is the "sufficient statistics" expression
      ∑ (y i - ȳ) * (x i - x̄) = ∑ x i * y i - (∑ x) * (∑ y) / N.
  Taking `y = x` gives the centred energy `∑ (x i - x̄)² = ∑ x i² - (∑ x)² / N`.
  Expanding the product, the two mixed terms each contribute `(∑ x) (∑ y) / N` and the constant term contributes
  `N · x̄ · ȳ`, which is the same quantity once more with the opposite sign.
-/
import Mathlib.Algebra.BigOperators.Field
import Mathlib.Data.Real.Basic
import Mathlib.Tactic.Ring
import Mathlib.Tactic.FieldSimp

namespace Cert.Stats

open Finset

/-- Centred cross term from the three raw sums. -/
theorem centered_cross {ι : Type*} [Fintype ι] (x y : ι → ℝ) (N : ℝ) (hN : (Fintype.card ι : ℝ) = N) (h0 : N ≠ 0) :
    ∑ i, (y i - (∑ j, y j) / N) * (x i - (∑ j, x j) / N)
      = (∑ i, x i * y i) - (∑ i, x i) * (∑ i, y i) / N := by
  have hpt : ∀ i, (y i - (∑ j, y j) / N) * (x i - (∑ j, x j) / N)
      = x i * y i - ((∑ j, x j) / N) * y i - ((∑ j, y j) / N) * x i + ((∑ j, x j) / N) * ((∑ j, y j) / N) := fun i => by ring
  simp only [hpt, Finset.sum_add_distrib, Finset.sum_sub_distrib, ← Finset.mul_sum, Finset.sum_const, Finset.card_univ,
    nsmul_eq_mul, hN]
  field_simp
  ring

/-- Centred energy from the two raw sums: the case `y = x`. -/
theorem centered_energy {ι : Type*} [Fintype ι] (x : ι → ℝ) (N : ℝ) (hN : (Fintype.card ι : ℝ) = N) (h0 : N ≠ 0) :
    ∑ i, (x i - (∑ j, x j) / N) * (x i - (∑ j, x j) / N)
      = (∑ i, x i * x i) - (∑ i, x i) * (∑ i, x i) / N :=
  centered_cross x x N hN h0

end Cert.Stats
-- ==== Proof.LossAlgebra.lean ====
/-
  On real-valued arrays the kernel's closed form and the reference's are one extended real: every sum is a real sum,
  the ten tiles of 400 time samples are the 4000 time samples, and the centred sums are the raw statistics'
  expressions (`CenteredSums`), row by row.
-/
import proofs.«130764_j17222818857434_1_alg».proof.Proof.Spec
import proofs.«130764_j17222818857434_1_alg».proof.Proof.CenteredSums
import Mathlib.Logic.Equiv.Fin.Basic
import Mathlib.Algebra.BigOperators.Fin
import Mathlib.Tactic.NormNum
import Mathlib.Tactic.FinCases

noncomputable section

namespace Cert.Stats

open Idealize.ShloMosaic Idealize.ShloMosaic.ValueIdx

/-! ## The two literals -/

/-- The literal `+0.0` is the extended real zero. -/
theorem zeroE_eq : zeroE = 0 := Ideal.ofBits_zero_f32

/-- The literal `0x49C35000`: exponent field 147, fraction `0x435000`, that is
    `(2^23 + 0x435000) · 2^(147 - 127 - 23) = 12 800 000 / 8 = 1 600 000`. -/
theorem nE_eq : nE = ((1600000 : ℝ) : EReal) := by
  simp [Ideal.ofBits, Ideal.ieee, -EReal.coe_mul]
  norm_num

/-! ## Sums of coercions, and the tiling -/

/-- A finite sum of real numbers read in the extended reals is the real sum read there. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Ten tiles of 400 time samples are the 4000 time samples: sample `u` is sample `u % 400` of tile `u / 400`. -/
theorem tile_sum {M : Type*} [AddCommMonoid M] (g : Fin 4000 → M) :
    ∑ s : Fin 10, ∑ a : Fin 400, g (tileRow s a) = ∑ u : Fin 4000, g u := by
  rw [← Fintype.sum_prod_type']
  refine Fintype.sum_equiv (finProdFinEquiv : Fin 10 × Fin 400 ≃ Fin 4000) _ _ fun x => ?_
  congr 1
  ext
  simp [tileRow, finProdFinEquiv]
  omega

/-! ## The real statistics -/

/-- The five per-sample summands over the reals. -/
def statR (j : Fin 5) (a b : ℝ) : ℝ :=
  match j with
  | ⟨0, _⟩ => a
  | ⟨1, _⟩ => b
  | ⟨2, _⟩ => a * b
  | ⟨3, _⟩ => a * a
  | ⟨4, _⟩ => b * b

/-- The real sum of `g` over row `r`'s plane. -/
def pSum (r : Fin 64) (g : SIn.Idx → ℝ) : ℝ := ∑ u : Fin 4000, ∑ v : Fin 400, g (planeIdx r u v)

/-- A summand of real samples is the real summand. -/
theorem stat_coe (j : Fin 5) (a b : ℝ) : stat j (a : EReal) (b : EReal) = ((statR j a b : ℝ) : EReal) := by
  fin_cases j <;> simp [stat, statR]

/-- Each raw statistic the kernel accumulates is the real plane sum of its summand. -/
theorem kStat_coe (x0 x1 : SIn.Idx → ℝ) (r : Fin 64) (j : Fin 5) :
    kStat (fun i => ((x0 i : ℝ) : EReal)) (fun i => ((x1 i : ℝ) : EReal)) r j
      = ((pSum r (fun i => statR j (x0 i) (x1 i)) : ℝ) : EReal) := by
  unfold kStat pSum
  rw [tile_sum (fun u => ∑ b : Fin 400, stat j ((x0 (planeIdx r u b) : ℝ) : EReal) ((x1 (planeIdx r u b) : ℝ) : EReal))]
  simp only [stat_coe, coe_sum, zeroE_eq, zero_add]

/-- A plane sum of real values, from the literal zero, is the real plane sum. -/
theorem planeSum_coe (g : SIn.Idx → ℝ) (r : Fin 64) :
    planeSum (fun i => ((g i : ℝ) : EReal)) r = ((pSum r g : ℝ) : EReal) := by
  unfold planeSum pSum
  simp only [coe_sum, zeroE_eq, zero_add]

/-- Dividing a real by the literal `1.6e6` is the real quotient. -/
theorem div_nE (a : ℝ) : Ideal.div (a : EReal) nE = ((a / 1600000 : ℝ) : EReal) := by
  rw [nE_eq, Ideal.div_coe (by norm_num), ← EReal.coe_mul, mul_one_div]

/-- A real array centred by its row mean is the real centred array. -/
theorem centered_coe (x : SIn.Idx → ℝ) (r : Fin 64) (i : SIn.Idx) :
    centered (fun i => ((x i : ℝ) : EReal)) r i = ((x i - pSum r x / 1600000 : ℝ) : EReal) := by
  unfold centered
  rw [planeSum_coe, div_nE, ← EReal.coe_sub]

/-! ## The centred sums are the raw statistics' expressions -/

/-- The plane has 1 600 000 samples. -/
theorem card_plane : (Fintype.card (Fin 4000 × Fin 400) : ℝ) = 1600000 := by
  rw [Fintype.card_prod, Fintype.card_fin, Fintype.card_fin]; norm_num

/-- Cross term: centred observed times centred synthetic, summed over the plane. -/
theorem cross_real (x0 x1 : SIn.Idx → ℝ) (r : Fin 64) :
    pSum r (fun i => (x1 i - pSum r x1 / 1600000) * (x0 i - pSum r x0 / 1600000))
      = pSum r (fun i => x0 i * x1 i) - pSum r x0 * pSum r x1 / 1600000 := by
  have h := centered_cross (ι := Fin 4000 × Fin 400) (fun p => x0 (planeIdx r p.1 p.2))
    (fun p => x1 (planeIdx r p.1 p.2)) 1600000 card_plane (by norm_num)
  simp only [Fintype.sum_prod_type] at h
  exact h

/-- Energy: the centred array times itself, summed over the plane. -/
theorem energy_real (x : SIn.Idx → ℝ) (r : Fin 64) :
    pSum r (fun i => (x i - pSum r x / 1600000) * (x i - pSum r x / 1600000))
      = pSum r (fun i => x i * x i) - pSum r x * pSum r x / 1600000 := cross_real x x r

/-! ## Row by row, then the loss -/

/-- The two row terms agree. -/
theorem row_eq (x0 x1 : SIn.Idx → ℝ) (r : Fin 64) :
    kRow (fun i => ((x0 i : ℝ) : EReal)) (fun i => ((x1 i : ℝ) : EReal)) r
      = rRow (fun i => ((x0 i : ℝ) : EReal)) (fun i => ((x1 i : ℝ) : EReal)) r := by
  unfold kRow rRow
  simp only [kStat_coe, centered_coe, ← EReal.coe_mul, planeSum_coe, div_nE, ← EReal.coe_sub,
    cross_real, energy_real]
  rfl

/-- The two losses agree on real-valued arrays. -/
theorem loss_eq (x0 x1 : SIn.Idx → ℝ) :
    kLoss (fun i => ((x0 i : ℝ) : EReal)) (fun i => ((x1 i : ℝ) : EReal))
      = rLoss (fun i => ((x0 i : ℝ) : EReal)) (fun i => ((x1 i : ℝ) : EReal)) := by
  unfold kLoss rLoss
  simp only [row_eq]

end Cert.Stats

end
-- ==== Proof.KernelPieces.lean ====
/-
  What each control case of the kernel body leaves behind, as values of the body's loads.

  The body keeps a running [8, 5] accumulator in a scratch buffer. With `P` the point's [8, 5] block of partial
  statistics (a function of the two input blocks), the accumulator `acc` the point before left, and `Z` the zero
  block:
    * first time tile of a row block: the scratch is reset to `Z`, read back and left at `Z + P`;
    * a middle tile: the scratch is left at `acc + P`;
    * the last tile: the scratch is left at `acc + P`, and that same value is copied to the output block.
  Each lemma reads the case's covering store back through the whole buffer.
-/
import proofs.«130764_j17222818857434_1_alg».proof.Proof.Gen.KernelIdeal.Frame
import Idealize.ShloMosaic.Lib.Pipeline.Value
import Idealize.ShloMosaic.Lib.Tactic

noncomputable section

namespace Cert.KernelIdeal.KValue

open Cert.KernelIdeal Cert.KernelIdeal.Gen
open Idealize.ShloMosaic Idealize.ShloMosaic.TcCoe Idealize.SL.Sem

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- First tile: the scratch ends at the zero block plus the point's partial statistics. -/
theorem scratch_first (c : Dev nD) (i : grid0.Coords) (arg2 : Memref sig .tc .vmem S8x400x400 .f32) (harg2 : arg2.IsWhole) (arg3 : Memref sig .tc .vmem S8x400x400 .f32) (harg3 : arg3.IsWhole) (arg4 : Memref sig .tc .vmem S8x5 .f32) (harg4 : arg4.IsWhole) (arg5 : Memref sig .tc .vmem S8x5 .f32) (harg5 : arg5.IsWhole) (hc0 : cond0_0 i) (hc1 : ¬cond0_1 i)
    (x0 : Vec F S8x400x400 .f32) (x1 : Vec F S8x400x400 .f32) :
    sout0_A_0 c i arg2 harg2 arg3 harg3 arg4 harg4 arg5 harg5 hc0 hc1 x0 x1 = k0_pay1 (k0_pay3 x0 x1) (k0_pay2 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x5) origin2, View.readCov_unit_zero (S := S8x5) _ origin2]
  simp only [View.readAt_eq_ld, harg2.read_unread, harg3.read_unread, View.ld_unit_zero (S := S8x400x400) origin3]

/-- A middle tile: the scratch ends at what the point before left plus the point's partial statistics. -/
theorem scratch_middle (c : Dev nD) (i : grid0.Coords) (arg2 : Memref sig .tc .vmem S8x400x400 .f32) (harg2 : arg2.IsWhole) (arg3 : Memref sig .tc .vmem S8x400x400 .f32) (harg3 : arg3.IsWhole) (arg4 : Memref sig .tc .vmem S8x5 .f32) (harg4 : arg4.IsWhole) (arg5 : Memref sig .tc .vmem S8x5 .f32) (harg5 : arg5.IsWhole) (hc0 : ¬cond0_0 i) (hc1 : ¬cond0_1 i)
    (x0 : Vec F S8x400x400 .f32) (x1 : Vec F S8x400x400 .f32) (xs0 : Vec F S8x5 .f32) :
    sout0_B_0 c i arg2 harg2 arg3 harg3 arg4 harg4 arg5 harg5 hc0 hc1 x0 x1 xs0 = k0_pay1 (k0_pay3 x0 x1) xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero origin2]
  simp only [View.readAt_eq_ld, harg2.read_unread, harg3.read_unread, harg5.read_unread,
    View.ld_unit_zero (S := S8x400x400) origin3, View.ld_unit_zero (S := S8x5) origin2]

/-- The last tile: the scratch ends at what the point before left plus the point's partial statistics; -/
theorem scratch_last (c : Dev nD) (i : grid0.Coords) (arg2 : Memref sig .tc .vmem S8x400x400 .f32) (harg2 : arg2.IsWhole) (arg3 : Memref sig .tc .vmem S8x400x400 .f32) (harg3 : arg3.IsWhole) (arg4 : Memref sig .tc .vmem S8x5 .f32) (harg4 : arg4.IsWhole) (arg5 : Memref sig .tc .vmem S8x5 .f32) (harg5 : arg5.IsWhole) (hc0 : ¬cond0_0 i) (hc1 : cond0_1 i)
    (x0 : Vec F S8x400x400 .f32) (x1 : Vec F S8x400x400 .f32) (xs0 : Vec F S8x5 .f32) :
    sout0_C_0 c i arg2 harg2 arg3 harg3 arg4 harg4 arg5 harg5 hc0 hc1 x0 x1 xs0 = k0_pay1 (k0_pay3 x0 x1) xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero origin2]
  simp only [View.readAt_eq_ld, harg2.read_unread, harg3.read_unread, harg5.read_unread,
    View.ld_unit_zero (S := S8x400x400) origin3, View.ld_unit_zero (S := S8x5) origin2]

/-- and the output block is that same value, copied from the scratch. -/
theorem out_last (c : Dev nD) (i : grid0.Coords) (arg2 : Memref sig .tc .vmem S8x400x400 .f32) (harg2 : arg2.IsWhole) (arg3 : Memref sig .tc .vmem S8x400x400 .f32) (harg3 : arg3.IsWhole) (arg4 : Memref sig .tc .vmem S8x5 .f32) (harg4 : arg4.IsWhole) (arg5 : Memref sig .tc .vmem S8x5 .f32) (harg5 : arg5.IsWhole) (hc0 : ¬cond0_0 i) (hc1 : cond0_1 i)
    (x0 : Vec F S8x400x400 .f32) (x1 : Vec F S8x400x400 .f32) (xs0 : Vec F S8x5 .f32) :
    out0_C_2 c i arg2 harg2 arg3 harg3 arg4 harg4 arg5 harg5 hc0 hc1 x0 x1 xs0 = k0_pay1 (k0_pay3 x0 x1) xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero origin2]
  simp only [View.readAt_eq_ld, harg2.read_unread, harg3.read_unread, harg5.read_unread,
    View.ld_unit_zero (S := S8x400x400) origin3, View.ld_unit_zero (S := S8x5) origin2,
    View.readCov_unit_zero (S := S8x5) _ origin2]

end Cert.KernelIdeal.KValue

end
-- ==== Proof.KernelPayload.lean ====
/-
  The point's block of partial statistics, read at an entry, at the ideal instance.

  For input blocks `x0`, `x1` of shape [8, 400, 400] (row, time sample, receiver) the body computes five [8, 1]
  columns — for each of `x0`, `x1`, `x0·x1`, `x0·x0`, `x1·x1` the sum over receivers, then over time samples, the
  result viewed [8,1,1] and back [8,1] — and concatenates them into an [8, 5] block. Its entry `(p, j)` is therefore
      ∑ a < 400, ∑ b < 400, statⱼ (x0 (p, a, b)) (x1 (p, a, b)).
-/
import proofs.«130764_j17222818857434_1_alg».proof.Proof.Gen.KernelIdeal.Skeleton
import proofs.«130764_j17222818857434_1_alg».proof.Proof.Spec
import Idealize.ShloMosaic.Lib.Pipeline.Value
import Idealize.ShloMosaic.Lib.ValueIdx
import Idealize.ShloMosaic.PureOps.Ideal.Laws

noncomputable section

namespace Cert.KernelIdeal.KValue

open Cert.KernelIdeal Cert.KernelIdeal.Gen Cert.Stats
open Idealize.ShloMosaic Idealize.ShloMosaic.ValueIdx

/-- The double reduction of one [8, 400, 400] block, at row `p`: receivers first, then time samples. -/
theorem blockSum_apply (v : FVec Ideal S8x400x400 .f32) (p : Fin 8) :
    shapeCast S8x1 (shapeCast S8x1x1 (multiReduction .add [1] S8x1 (shapeCast S8x400x1
        (multiReduction .add [2] S8x400 v 0x00000000#32 reduces_S8x400x400_S8x400 (.inl rfl) rfl) shapeCasts_S8x400_S8x400x1)
        0x00000000#32 reduces_S8x400x1_S8x1 (.inl rfl) rfl) shapeCasts_S8x1_S8x1x1) shapeCasts_S8x1x1_S8x1 (ix2 p (0 : Fin 1))
      = ∑ a : Fin 400, ∑ b : Fin 400, v (ix3 p a b) := by
  rw [shapeCast_shapeCast]
  refine (Ideal.multiReduction_add_single _ _ reduces_S8x400x1_S8x1 _ _ (ix2 p (0 : Fin 1))).trans ?_
  refine Finset.sum_congr rfl fun a _ => ?_
  refine (shapeCast_apply _ shapeCasts_S8x400_S8x400x1 _ (ix2 p a) ?_).trans ?_
  · rw [Shape.rowMajor_val_two, Shape.rowMajor_val_three]
    show p.val * 400 + a.val = (p.val * 400 + a.val) * 1 + 0
    omega
  refine (Ideal.multiReduction_add_single _ _ reduces_S8x400x400_S8x400 _ _ (ix2 p a)).trans ?_
  refine Finset.sum_congr rfl fun b _ => ?_
  refine congrArg v (funext fun d => ?_)
  match d with
  | ⟨0, _⟩ => rfl
  | ⟨1, _⟩ => rfl
  | ⟨2, _⟩ => rfl

/-- Five [8, 1] columns side by side: entry `(p, j)` of the [8, 5] block is entry `(p, 0)` of column `j`. -/
theorem columns_apply {α : Type} (v0 v1 v2 v3 v4 : S8x1.Idx → α)
    (h : Shape.Concatenates (([⟨S8x1, v0⟩, ⟨S8x1, v1⟩, ⟨S8x1, v2⟩, ⟨S8x1, v3⟩, ⟨S8x1, v4⟩] :
      List ((s : Shape) × (s.Idx → α))).map (·.1)) S8x5 1) (p : Fin 8) (j : Fin 5) :
    concatenate S8x5 1 [⟨S8x1, v0⟩, ⟨S8x1, v1⟩, ⟨S8x1, v2⟩, ⟨S8x1, v3⟩, ⟨S8x1, v4⟩] h (ix2 p j)
      = (match j with
          | ⟨0, _⟩ => v0 | ⟨1, _⟩ => v1 | ⟨2, _⟩ => v2 | ⟨3, _⟩ => v3 | ⟨4, _⟩ => v4) (ix2 p (0 : Fin 1)) := by
  have off : ∀ b : Fin S8x1.rank, b.cast (rfl : S8x1.rank = S8x5.rank) ≠ (1 : Fin 2) →
      ∀ jj : Fin 5, ((ix2 p (0 : Fin 1) : S8x1.Idx) b).val = ((ix2 p jj : S8x5.Idx) (b.cast (rfl : S8x1.rank = S8x5.rank))).val := by
    intro b hb jj
    match b with
    | ⟨0, _⟩ => rfl
    | ⟨1, _⟩ => exact absurd rfl hb
  match j with
  | ⟨0, hj⟩ => exact concatenate_apply_piece (1 : Fin 2) [⟨S8x1, v0⟩, ⟨S8x1, v1⟩, ⟨S8x1, v2⟩, ⟨S8x1, v3⟩, ⟨S8x1, v4⟩] h (ix2 p ⟨0, hj⟩) 0 (by show 0 < 5; decide) S8x1 v0 rfl rfl 0 rfl (ix2 p (0 : Fin 1)) (fun b hb => off b hb _) rfl
  | ⟨1, hj⟩ => exact concatenate_apply_piece (1 : Fin 2) [⟨S8x1, v0⟩, ⟨S8x1, v1⟩, ⟨S8x1, v2⟩, ⟨S8x1, v3⟩, ⟨S8x1, v4⟩] h (ix2 p ⟨1, hj⟩) 1 (by show 1 < 5; decide) S8x1 v1 rfl rfl 1 rfl (ix2 p (0 : Fin 1)) (fun b hb => off b hb _) rfl
  | ⟨2, hj⟩ => exact concatenate_apply_piece (1 : Fin 2) [⟨S8x1, v0⟩, ⟨S8x1, v1⟩, ⟨S8x1, v2⟩, ⟨S8x1, v3⟩, ⟨S8x1, v4⟩] h (ix2 p ⟨2, hj⟩) 2 (by show 2 < 5; decide) S8x1 v2 rfl rfl 2 rfl (ix2 p (0 : Fin 1)) (fun b hb => off b hb _) rfl
  | ⟨3, hj⟩ => exact concatenate_apply_piece (1 : Fin 2) [⟨S8x1, v0⟩, ⟨S8x1, v1⟩, ⟨S8x1, v2⟩, ⟨S8x1, v3⟩, ⟨S8x1, v4⟩] h (ix2 p ⟨3, hj⟩) 3 (by show 3 < 5; decide) S8x1 v3 rfl rfl 3 rfl (ix2 p (0 : Fin 1)) (fun b hb => off b hb _) rfl
  | ⟨4, hj⟩ => exact concatenate_apply_piece (1 : Fin 2) [⟨S8x1, v0⟩, ⟨S8x1, v1⟩, ⟨S8x1, v2⟩, ⟨S8x1, v3⟩, ⟨S8x1, v4⟩] h (ix2 p ⟨4, hj⟩) 4 (by show 4 < 5; decide) S8x1 v4 rfl rfl 4 rfl (ix2 p (0 : Fin 1)) (fun b hb => off b hb _) rfl

/-- Entry `(p, j)` of the point's block of partial statistics. -/
theorem partial_apply (x0 x1 : Vec Ideal S8x400x400 .f32) (p : Fin 8) (j : Fin 5) :
    k0_pay3 (F := Ideal) x0 x1 (ix2 p j)
      = ∑ a : Fin 400, ∑ b : Fin 400, stat j (x0 (ix3 p a b)) (x1 (ix3 p a b)) := by
  unfold k0_pay3
  simp only [shapeCast_self]
  refine (columns_apply _ _ _ _ _ _ p j).trans ?_
  match j with
  | ⟨0, _⟩ => exact blockSum_apply x0 p
  | ⟨1, _⟩ => exact blockSum_apply x1 p
  | ⟨2, _⟩ => exact blockSum_apply (mulf x0 x1) p
  | ⟨3, _⟩ => exact blockSum_apply (mulf x0 x0) p
  | ⟨4, _⟩ => exact blockSum_apply (mulf x1 x1) p

end Cert.KernelIdeal.KValue

end
-- ==== Proof.KernelAcc.lean ====
/-
  The running accumulator across the grid.

  The grid is 8 row blocks × 10 time tiles, visited row block by row block: point `n` is row block `n / 10`, tile
  `n % 10`. With `P n` the partial statistics of point `n`'s two input blocks, the scratch after point `n` is
      Z + P n                      when n is a row block's first tile (n % 10 = 0),
      (scratch after n - 1) + P n  otherwise,
  so after the last tile of row block `q` it is `Z + ∑ s < 10, P (10 q + s)`, entry by entry; and at that point the
  output block holds the same value.
-/
import proofs.«130764_j17222818857434_1_alg».proof.Proof.KernelPieces
import proofs.«130764_j17222818857434_1_alg».proof.Proof.KernelPayload

noncomputable section

namespace Cert.KernelIdeal.KValue

open Cert.KernelIdeal Cert.KernelIdeal.Gen Cert.Stats
open Idealize.ShloMosaic Idealize.ShloMosaic.TcCoe Idealize.SL.Sem Idealize.ShloMosaic.ValueIdx
open Idealize.ShloMosaic.Pipeline (Dat)

section AnyValues

variable {F : FTy → Type} [FloatOps F]
variable (m : (ℓ : Loc nD τ sig) → Buf (Elt F) ℓ)

/-- Point `n`'s two input blocks, at their literal shape. -/
abbrev blk0 (c : Dev nD) (n : ℕ) (h : n < cfg0.N) : Vec F S8x400x400 .f32 := iblk m c 0 ⟨n, h⟩
abbrev blk1 (c : Dev nD) (n : ℕ) (h : n < cfg0.N) : Vec F S8x400x400 .f32 := iblk m c 1 ⟨n, h⟩

/-- Point `n`'s block of partial statistics. -/
def part (c : Dev nD) (n : ℕ) (h : n < cfg0.N) : Vec F S8x5 .f32 := k0_pay3 (blk0 m c n h) (blk1 m c n h)

/-- The scratch after point `n`. -/
def scr (c : Dev nD) (n : ℕ) (h : n < cfg0.N) : Vec F S8x5 .f32 := (outsAt0 m c n h).2

/-- At a row block's first tile the scratch is the zero block plus the point's partial statistics. -/
theorem scr_reset (c : Dev nD) (n : ℕ) (h : n < cfg0.N) (h0 : n % 10 = 0) :
    scr m c n h = k0_pay1 (part m c n h) (k0_pay2 (F := F)) := by
  have h1 : ¬(⟨n, h⟩ : Fin cfg0.N).val % 10 = 9 := by dsimp only; omega
  unfold scr part
  rw [outsAt0_A m c ⟨n, h⟩ h0 h1]
  dsimp only
  exact scratch_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩)

/-- At every other tile it is what the point before left plus the point's partial statistics. -/
theorem scr_step (c : Dev nD) (n : ℕ) (h : n + 1 < cfg0.N) (h0 : ¬(n + 1) % 10 = 0) :
    scr m c (n + 1) h = k0_pay1 (part m c (n + 1) h) (scr m c n (Nat.lt_of_succ_lt h)) := by
  have h0' : ¬(⟨n + 1, h⟩ : Fin cfg0.N).val % 10 = 0 := h0
  unfold scr part
  by_cases h9 : (n + 1) % 10 = 9
  · rw [outsAt0_C m c ⟨n + 1, h⟩ h0' h9]
    dsimp only
    exact scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0' ((hcond0_0 ⟨n + 1, h⟩).mp hh)) ((hcond0_1 ⟨n + 1, h⟩).mpr h9) (iblk m c 0 ⟨n + 1, h⟩) (iblk m c 1 ⟨n + 1, h⟩) (outsAt0 m c n (Nat.lt_of_succ_lt h)).2
  · rw [outsAt0_B m c ⟨n + 1, h⟩ h0' h9]
    dsimp only
    exact scratch_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0' ((hcond0_0 ⟨n + 1, h⟩).mp hh)) (fun hh => h9 ((hcond0_1 ⟨n + 1, h⟩).mp hh)) (iblk m c 0 ⟨n + 1, h⟩) (iblk m c 1 ⟨n + 1, h⟩) (outsAt0 m c n (Nat.lt_of_succ_lt h)).2

/-- At a row block's last tile the output block holds what the scratch holds. -/
theorem out_eq_scr (c : Dev nD) (n : ℕ) (h : n + 1 < cfg0.N) (h9 : (n + 1) % 10 = 9) :
    (outsAt0 m c (n + 1) h).1 = scr m c (n + 1) h := by
  have h0' : ¬(⟨n + 1, h⟩ : Fin cfg0.N).val % 10 = 0 := by dsimp only; omega
  unfold scr
  rw [outsAt0_C m c ⟨n + 1, h⟩ h0' h9]
  dsimp only
  exact (out_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0' ((hcond0_0 ⟨n + 1, h⟩).mp hh)) ((hcond0_1 ⟨n + 1, h⟩).mpr h9) (iblk m c 0 ⟨n + 1, h⟩) (iblk m c 1 ⟨n + 1, h⟩) (outsAt0 m c n (Nat.lt_of_succ_lt h)).2).trans
    (scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0' ((hcond0_0 ⟨n + 1, h⟩).mp hh)) ((hcond0_1 ⟨n + 1, h⟩).mpr h9) (iblk m c 0 ⟨n + 1, h⟩) (iblk m c 1 ⟨n + 1, h⟩) (outsAt0 m c n (Nat.lt_of_succ_lt h)).2).symm

/-- So at tile `j` of row block `q` the scratch is the fold of the row block's tiles `0 … j`. -/
theorem scr_eq_fold (c : Dev nD) (q j : ℕ) (hj : j < 10) (h : 10 * q + j < cfg0.N) :
    scr m c (10 * q + j) h
      = Pipeline.accAt (fun n h => k0_pay1 (part m c n h) (k0_pay2 (F := F))) (fun n h acc => k0_pay1 (part m c n h) acc) (10 * q) j h :=
  Pipeline.eq_accAt (scr m c) 10 _ _ (scr_reset m c) (scr_step m c) q j hj h

end AnyValues

/-! ## At the ideal instance: the fold, entry by entry -/

variable (m : (ℓ : Loc nD τ sig) → Buf (Elt Ideal) ℓ)

/-- The accumulating store's payload adds, entry by entry. -/
theorem add_apply (v35 : FVec Ideal S8x5 .f32) (v36 : Vec Ideal S8x5 .f32) (i : S8x5.Idx) :
    k0_pay1 v35 v36 i = v36 i + v35 i := by
  unfold k0_pay1
  rw [shapeCast_self]
  rfl

/-- Point `n`'s addend at an entry, as a function of every natural number (zero past the grid). -/
def addend (c : Dev nD) (n : ℕ) (i : S8x5.Idx) : EReal := if h : n < cfg0.N then part m c n h i else 0

/-- After the last tile of row block `q` the scratch holds zero plus the ten tiles' partial statistics. -/
theorem scr_last_apply (c : Dev nD) (q : ℕ) (h : 10 * q + 9 < cfg0.N) (i : S8x5.Idx) :
    scr m c (10 * q + 9) h i = zeroE + ∑ s ∈ Finset.range 10, addend m c (10 * q + s) i := by
  rw [scr_eq_fold m c q 9 (by decide) h]
  refine Pipeline.accAt_add_apply _ _ (fun _ => zeroE) (addend m c) (10 * q) 9 ?_ ?_ 9 (le_refl _) h i
  · intro hb i
    rw [add_apply]
    unfold addend
    rw [dif_pos hb]
    rfl
  · intro n hn acc i _ _
    rw [add_apply]
    unfold addend
    rw [dif_pos hn]

end Cert.KernelIdeal.KValue

end
-- ==== Proof.KernelArray.lean ====
/-
  The [64, 5] statistics array after the region.

  Point `n` of the grid is row block `n / 10`, time tile `n % 10`: its input blocks are rows `8 (n / 10) …`, time
  samples `400 (n % 10) …` of the two [64, 4000, 400] arrays the region finds, which are the argument arrays with
  (batch, shot) merged into one row axis (row `r` = batch `r / 16`, shot `r % 16`). The output block of row block
  `q` is written back once, after tile 9, holding zero plus the ten tiles' partial statistics; the eight row blocks
  tile the 64 rows. So the array ends, at `(r, j)`, at the kernel's form of statistic `j` of row `r` (`kStat`).
-/
import proofs.«130764_j17222818857434_1_alg».proof.Proof.KernelAcc
import Idealize.ShloMosaic.Lib.StableHlo.Run

set_option maxRecDepth 16384

noncomputable section

namespace Cert.KernelIdeal.KValue

open Cert.KernelIdeal Cert.KernelIdeal.Gen Cert.Stats
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The two argument arrays. -/
abbrev arg0 (c : Dev nD) : SIn.Idx → EReal := m ((c.tc : Thread nD τ).loc main_arg0)
abbrev arg1 (c : Dev nD) : SIn.Idx → EReal := m ((c.tc : Thread nD τ).loc main_arg1)

/-- The printed index maps over the grid: row block `n / 10`, tile `n % 10`, receivers whole. -/
theorem index_facts : ∀ t : Fin cfg0.N,
    win0_0.index t (0 : Fin 3) = t.val / 10 ∧ win0_0.index t (1 : Fin 3) = t.val % 10 ∧ win0_0.index t (2 : Fin 3) = 0
    ∧ win0_1.index t (0 : Fin 3) = t.val / 10 ∧ win0_1.index t (1 : Fin 3) = t.val % 10 ∧ win0_1.index t (2 : Fin 3) = 0
    ∧ win0_2.index t (0 : Fin 2) = t.val / 10 ∧ win0_2.index t (1 : Fin 2) = 0 :=
  (by decide +kernel : ∀ t : Fin grid0.N, _)

/-- The region finds the first argument with (batch, shot) merged; -/
theorem entry_v0 (c : Dev nD) :
    (V m c main_v0 : S64x4000x400.Idx → EReal)
      = shapeCast S64x4000x400 (arg0 m c) shapeCasts_S4x16x4000x400_S64x4000x400 := by
  show StableHlo.after hostOps0 (fun b => m (c, b)) (Proc.devRef .tc main_v0) = _
  after_results
  rfl

/-- and the second likewise. -/
theorem entry_v1 (c : Dev nD) :
    (V m c main_v1 : S64x4000x400.Idx → EReal)
      = shapeCast S64x4000x400 (arg1 m c) shapeCasts_S4x16x4000x400_S64x4000x400 := by
  show StableHlo.after hostOps0 (fun b => m (c, b)) (Proc.devRef .tc main_v1) = _
  after_results
  rfl

/-- Merging (batch, shot): row `r`, sample `(u, v)` of the merged array is the row's plane entry. -/
theorem merged_apply (X : SIn.Idx → EReal) (r : Fin 64) (u : Fin 4000) (v : Fin 400) :
    shapeCast S64x4000x400 X shapeCasts_S4x16x4000x400_S64x4000x400 (ix3 r u v) = X (planeIdx r u v) := by
  refine shapeCast_apply _ _ _ (planeIdx r u v) ?_
  rw [Shape.rowMajor_val_four, Shape.rowMajor_val_three]
  show ((r.val / 16 * 16 + r.val % 16) * 4000 + u.val) * 400 + v.val = (r.val * 4000 + u.val) * 400 + v.val
  have := Nat.div_add_mod r.val 16
  have e : r.val / 16 * 16 + r.val % 16 = r.val := by omega
  rw [e]

/-- Row `p`, time sample `a`, receiver `b` of point `n`'s first input block. -/
theorem blk0_apply (c : Dev nD) (n : ℕ) (h : n < cfg0.N) (p : Fin 8) (a : Fin 400) (b : Fin 400)
    (hr : 8 * (n / 10) + p.val < 64) (hu : 400 * (n % 10) + a.val < 4000) :
    blk0 m c n h (ix3 p a b) = arg0 m c (planeIdx ⟨8 * (n / 10) + p.val, hr⟩ ⟨400 * (n % 10) + a.val, hu⟩ b) := by
  obtain ⟨e0, e1, e2, -⟩ := index_facts ⟨n, h⟩
  show ((cfg0.win 0).blk ⟨n, h⟩).view.read (Elt Ideal) (V m c (Pipeline.arrRef spec0 0)) (ix3 p a b) = _
  rw [View.read_apply]
  show V m c main_v0 (((cfg0.win 0).blk ⟨n, h⟩).view.emb (ix3 p a b)) = _
  have he : ((cfg0.win 0).blk ⟨n, h⟩).view.emb (ix3 p a b)
      = (ix3 (⟨8 * (n / 10) + p.val, hr⟩ : Fin 64) (⟨400 * (n % 10) + a.val, hu⟩ : Fin 4000) b : S64x4000x400.Idx) := by
    funext d; apply Fin.ext
    match d with
    | ⟨0, _⟩ => show win0_0.index ⟨n, h⟩ (0 : Fin 3) * 8 + 1 * p.val = 8 * (n / 10) + p.val; rw [e0]; dsimp only; omega
    | ⟨1, _⟩ => show win0_0.index ⟨n, h⟩ (1 : Fin 3) * 400 + 1 * a.val = 400 * (n % 10) + a.val; rw [e1]; dsimp only; omega
    | ⟨2, _⟩ => show win0_0.index ⟨n, h⟩ (2 : Fin 3) * 400 + 1 * b.val = b.val; rw [e2]; omega
  rw [he, entry_v0]
  exact merged_apply _ _ _ _

/-- The same of its second input block. -/
theorem blk1_apply (c : Dev nD) (n : ℕ) (h : n < cfg0.N) (p : Fin 8) (a : Fin 400) (b : Fin 400)
    (hr : 8 * (n / 10) + p.val < 64) (hu : 400 * (n % 10) + a.val < 4000) :
    blk1 m c n h (ix3 p a b) = arg1 m c (planeIdx ⟨8 * (n / 10) + p.val, hr⟩ ⟨400 * (n % 10) + a.val, hu⟩ b) := by
  obtain ⟨-, -, -, e0, e1, e2, -⟩ := index_facts ⟨n, h⟩
  show ((cfg0.win 1).blk ⟨n, h⟩).view.read (Elt Ideal) (V m c (Pipeline.arrRef spec0 1)) (ix3 p a b) = _
  rw [View.read_apply]
  show V m c main_v1 (((cfg0.win 1).blk ⟨n, h⟩).view.emb (ix3 p a b)) = _
  have he : ((cfg0.win 1).blk ⟨n, h⟩).view.emb (ix3 p a b)
      = (ix3 (⟨8 * (n / 10) + p.val, hr⟩ : Fin 64) (⟨400 * (n % 10) + a.val, hu⟩ : Fin 4000) b : S64x4000x400.Idx) := by
    funext d; apply Fin.ext
    match d with
    | ⟨0, _⟩ => show win0_1.index ⟨n, h⟩ (0 : Fin 3) * 8 + 1 * p.val = 8 * (n / 10) + p.val; rw [e0]; dsimp only; omega
    | ⟨1, _⟩ => show win0_1.index ⟨n, h⟩ (1 : Fin 3) * 400 + 1 * a.val = 400 * (n % 10) + a.val; rw [e1]; dsimp only; omega
    | ⟨2, _⟩ => show win0_1.index ⟨n, h⟩ (2 : Fin 3) * 400 + 1 * b.val = b.val; rw [e2]; omega
  rw [he, entry_v1]
  exact merged_apply _ _ _ _

/-- Tile `s` of row block `q`: entry `(p, j)` of its partial statistics, over the argument arrays. -/
theorem addend_apply (c : Dev nD) (q : ℕ) (hq : q < 8) (s : Fin 10) (p : Fin 8) (j : Fin 5) :
    addend m c (10 * q + s.val) (ix2 p j)
      = ∑ a : Fin 400, ∑ b : Fin 400,
          stat j (arg0 m c (planeIdx ⟨8 * q + p.val, by have := p.isLt; omega⟩ (tileRow s a) b))
            (arg1 m c (planeIdx ⟨8 * q + p.val, by have := p.isLt; omega⟩ (tileRow s a) b)) := by
  have hs := s.isLt
  have hN : cfg0.N = 80 := N_0
  have hn : 10 * q + s.val < cfg0.N := by omega
  have hdiv : (10 * q + s.val) / 10 = q := by omega
  have hmod : (10 * q + s.val) % 10 = s.val := by omega
  unfold addend
  rw [dif_pos hn]
  unfold part
  rw [partial_apply]
  refine Finset.sum_congr rfl fun a _ => Finset.sum_congr rfl fun b _ => ?_
  have hp := p.isLt
  have ha := a.isLt
  rw [blk0_apply m c _ hn p a b (by omega) (by omega), blk1_apply m c _ hn p a b (by omega) (by omega)]
  have hidx : planeIdx (⟨8 * ((10 * q + s.val) / 10) + p.val, by omega⟩ : Fin 64) (⟨400 * ((10 * q + s.val) % 10) + a.val, by omega⟩ : Fin 4000) b
      = planeIdx ⟨8 * q + p.val, by omega⟩ (tileRow s a) b := by
    congr 1
    · exact Fin.ext (by show 8 * ((10 * q + s.val) / 10) + p.val = 8 * q + p.val; rw [hdiv])
    · exact Fin.ext (by show 400 * ((10 * q + s.val) % 10) + a.val = 400 * s.val + a.val; rw [hmod])
  rw [hidx]

/-- The statistics array: entry `(r, j)` is the kernel's form of statistic `j` of row `r`. -/
def statsArray (c : Dev nD) : Buf (Elt Ideal) ((c.tc : Thread nD τ).loc main_v2) :=
  fun i => kStat (arg0 m c) (arg1 m c) (i 0) (i 1)

/-- The output block at a row block's last tile equals the scratch there. -/
theorem out_eq_scr' (c : Dev nD) : ∀ (n : ℕ) (h : n < cfg0.N), n % 10 = 9 → (outsAt0 m c n h).1 = scr m c n h
  | 0, _, h9 => absurd h9 (by decide)
  | n + 1, h, h9 => out_eq_scr m c n h h9

/-- What a write-back point writes is its block of the statistics array. -/
theorem flushed_eq (c : Dev nD) (t : Fin cfg0.N) (hf : (cfg0.win 2).flush t = true) :
    (dats m 0 c).flushed 2 t = ((cfg0.win 2).blk t).view.read (Elt Ideal) (statsArray m c) := by
  have h9 : t.val % 10 = 9 := (flush0_2 t).mp hf
  have hN : cfg0.N = 80 := N_0
  obtain ⟨q, hq⟩ : ∃ q, t.val = 10 * q + 9 := ⟨t.val / 10, by omega⟩
  obtain ⟨tv, ht⟩ := t
  dsimp only at hq h9
  subst hq
  have hq8 : q < 8 := by omega
  obtain ⟨-, -, -, -, -, -, e0, e1⟩ := index_facts ⟨10 * q + 9, ht⟩
  show (cfg0.win 2).cut (grid0.coords ⟨10 * q + 9, ht⟩) ((dats m 0 c).after 2 ⟨10 * q + 9, ht⟩) = _
  rw [after0_2]
  funext y
  obtain ⟨p, j, rfl⟩ : ∃ (p : Fin 8) (j : Fin 5), y = ix2 p j := ⟨y 0, y 1, eq_ix2 y⟩
  show (outsAt0 m c (10 * q + 9) ht).1 (ix2 p j) = statsArray m c (((cfg0.win 2).blk ⟨10 * q + 9, ht⟩).view.emb (ix2 p j))
  have hp := p.isLt
  have he : ((cfg0.win 2).blk ⟨10 * q + 9, ht⟩).view.emb (ix2 p j)
      = (ix2 (⟨8 * q + p.val, by omega⟩ : Fin 64) j : S64x5.Idx) := by
    funext d; apply Fin.ext
    match d with
    | ⟨0, _⟩ => show win0_2.index ⟨10 * q + 9, ht⟩ (0 : Fin 2) * 8 + 1 * p.val = 8 * q + p.val; rw [e0]; dsimp only; omega
    | ⟨1, _⟩ => show win0_2.index ⟨10 * q + 9, ht⟩ (1 : Fin 2) * 5 + 1 * j.val = j.val; rw [e1]; omega
  rw [he, out_eq_scr' m c _ ht h9, scr_last_apply m c q ht]
  show _ = kStat (arg0 m c) (arg1 m c) ⟨8 * q + p.val, _⟩ j
  unfold kStat
  congr 1
  rw [Finset.sum_range]
  exact Finset.sum_congr rfl fun s _ => addend_apply m c q hq8 s p j

/-- The eight row blocks tile the array, so it ends at the statistics array. -/
theorem final_stats (c : Dev nD) : (dats m 0 c).arrAt 2 cfg0.N = statsArray m c :=
  (dats m 0 c).arrAt_eq_of_cover 2 (statsArray m c) (flushed_eq m c) fun i => by
    have hN : cfg0.N = 80 := N_0
    have hi0 : (i 0).val < 64 := (i 0).isLt
    have hi1 : (i 1).val < 5 := (i 1).isLt
    have ht : 10 * ((i 0).val / 8) + 9 < cfg0.N := by omega
    obtain ⟨-, -, -, -, -, -, e0, e1⟩ := index_facts ⟨10 * ((i 0).val / 8) + 9, ht⟩
    refine ⟨⟨10 * ((i 0).val / 8) + 9, ht⟩, (flush0_2 _).mpr (by dsimp only; omega), ?_⟩
    show i ∈ ((View.whole main_v2).slice (win0_2.rect ⟨10 * ((i 0).val / 8) + 9, ht⟩)).set
    rw [View.set_slice_whole, Rect.mem_set_unit]
    intro a
    match a with
    | ⟨0, _⟩ =>
      show win0_2.index ⟨10 * ((i 0).val / 8) + 9, ht⟩ (0 : Fin 2) * 8 ≤ (i 0).val
        ∧ (i 0).val < win0_2.index ⟨10 * ((i 0).val / 8) + 9, ht⟩ (0 : Fin 2) * 8 + 8
      rw [e0]; dsimp only; omega
    | ⟨1, _⟩ =>
      show win0_2.index ⟨10 * ((i 0).val / 8) + 9, ht⟩ (1 : Fin 2) * 5 ≤ (i 1).val
        ∧ (i 1).val < win0_2.index ⟨10 * ((i 0).val / 8) + 9, ht⟩ (1 : Fin 2) * 5 + 5
      rw [e1]; omega

end Cert.KernelIdeal.KValue

end
-- ==== Proof.KernelValue.lean ====
/-
  The idealized kernel's run, read: its result is the closed form `kLoss` of the two argument arrays, which end
  unchanged.

  After the region the program slices the five columns out of the [64, 5] statistics array, forms per row
      cross = S₂ − S₀·S₁ / N,  E₁ = S₄ − S₁·S₁ / N,  E₀ = S₃ − S₀·S₀ / N,
  divides `cross` by `√E₁ · √E₀`, sums the 64 rows from zero and negates. Read at its one entry, with the
  statistics array's entries the kernel's statistics of the rows, that is `kLoss`.
-/
import proofs.«130764_j17222818857434_1_alg».proof.Proof.KernelArray
import Idealize.ShloMosaic.Lib.IdealHost
import Idealize.ShloMosaic.Lib.ValueLayout

set_option maxRecDepth 16384

noncomputable section

namespace Cert.KernelIdeal.KValue

open Cert.KernelIdeal Cert.KernelIdeal.Gen Cert.Stats
open Idealize.ShloMosaic Idealize.ShloMosaic.TcCoe Idealize.SL.Sem Idealize.ShloMosaic.ValueIdx
open Idealize.ShloMosaic.Pipeline (Dat)

/-- Column `j` of a [64, 5] array as a vector of 64, as the program slices and reshapes it. -/
def column0 (G : FVec Ideal S64x5 .f32) : FVec Ideal S64 .f32 :=
  shapeCast S64 (extractStridedSlice S64x1 ![0, 0] G slices_S64x5_S64x1_0_0) shapeCasts_S64x1_S64
def column1 (G : FVec Ideal S64x5 .f32) : FVec Ideal S64 .f32 :=
  shapeCast S64 (extractStridedSlice S64x1 ![0, 1] G slices_S64x5_S64x1_0_1) shapeCasts_S64x1_S64
def column2 (G : FVec Ideal S64x5 .f32) : FVec Ideal S64 .f32 :=
  shapeCast S64 (extractStridedSlice S64x1 ![0, 2] G slices_S64x5_S64x1_0_2) shapeCasts_S64x1_S64
def column3 (G : FVec Ideal S64x5 .f32) : FVec Ideal S64 .f32 :=
  shapeCast S64 (extractStridedSlice S64x1 ![0, 3] G slices_S64x5_S64x1_0_3) shapeCasts_S64x1_S64
def column4 (G : FVec Ideal S64x5 .f32) : FVec Ideal S64 .f32 :=
  shapeCast S64 (extractStridedSlice S64x1 ![0, 4] G slices_S64x5_S64x1_0_4) shapeCasts_S64x1_S64

/-- The sample count `N`, broadcast over the 64 rows. -/
def countVec : FVec Ideal S64 .f32 := broadcastInDim S64 ![] bcast_S_S64 (constant (F := Ideal) S_ .f32 0x49C35000#32)

/-- The per-row quotients the program sums. -/
def rowQuotients (G : FVec Ideal S64x5 .f32) : FVec Ideal S64 .f32 :=
  Host.divf (F := Ideal)
    (subf (column2 G) (Host.divf (F := Ideal) (mulf (column0 G) (column1 G)) countVec))
    (mulf (Host.sqrt (F := Ideal) (subf (column4 G) (Host.divf (F := Ideal) (mulf (column1 G) (column1 G)) countVec)))
      (Host.sqrt (F := Ideal) (subf (column3 G) (Host.divf (F := Ideal) (mulf (column0 G) (column0 G)) countVec))))

/-- The program's lines after the region, as one function of the statistics array. -/
def tail (G : FVec Ideal S64x5 .f32) : FVec Ideal S_ .f32 :=
  Host.negf (F := Ideal) (Host.reduceAdd (F := Ideal) (rowQuotients G) (constant (F := Ideal) S_ .f32 0x00000000#32) reducesTo_S64_S_d0 h_S_)

variable (m : (ℓ : Loc nD τ sig) → Buf (Elt Ideal) ℓ) (ρ : Dev nD → PrngReg)

set_option maxHeartbeats 2000000 in
/-- What the lines after the region leave in the result buffer. -/
theorem tail_result (c : Dev nD) :
    Pipeline.afterTail₀ cfgs (dats m) 0 (V0 m) [hostOps1] c main_v30 = tail (statsArray m c) := by
  unfold Pipeline.afterTail₀
  show StableHlo.after hostOps1 _ (Proc.devRef .tc main_v30) = _
  after_results_simp
  have hw : Pipeline.withArrays (cfgs 0).spec c (V0 m c) (fun w => (dats m 0 c).arrAt w (cfgs 0).N) (Proc.devRef .tc main_v2)
      = statsArray m c :=
    (Pipeline.withArrays_arr spec0 launch0.win.arr_inj c _ _ 2).trans (final_stats m c)
  rw [hw]
  rfl

/-! ## The tail at its one entry -/

/-- Entry `r` of a column is entry `(r, j)` of the array. -/
theorem column_entry (G : FVec Ideal S64x5 .f32) (j : Fin 5) (h : S64x5.Slices ![0, j.val] S64x1) (r : Fin 64) :
    shapeCast S64 (extractStridedSlice S64x1 ![0, j.val] G h) shapeCasts_S64x1_S64 (ix1 r) = G (ix2 r j) := by
  refine (shapeCast_apply _ shapeCasts_S64x1_S64 (ix1 r) (ix2 r (0 : Fin 1)) ?_).trans ?_
  · rw [Shape.rowMajor_val_two, Shape.rowMajor_val_one]
    show r.val * 1 + 0 = r.val
    omega
  · exact extractStridedSlice_apply _ G h (ix2 r (0 : Fin 1)) (ix2 r j) fun a =>
      match a with
      | ⟨0, _⟩ => by show r.val = 0 + r.val; omega
      | ⟨1, _⟩ => by show j.val = j.val + 0; omega

theorem column0_apply (G : FVec Ideal S64x5 .f32) (r : Fin 64) : column0 G (ix1 r) = G (ix2 r 0) := column_entry G 0 _ r
theorem column1_apply (G : FVec Ideal S64x5 .f32) (r : Fin 64) : column1 G (ix1 r) = G (ix2 r 1) := column_entry G 1 _ r
theorem column2_apply (G : FVec Ideal S64x5 .f32) (r : Fin 64) : column2 G (ix1 r) = G (ix2 r 2) := column_entry G 2 _ r
theorem column3_apply (G : FVec Ideal S64x5 .f32) (r : Fin 64) : column3 G (ix1 r) = G (ix2 r 3) := column_entry G 3 _ r
theorem column4_apply (G : FVec Ideal S64x5 .f32) (r : Fin 64) : column4 G (ix1 r) = G (ix2 r 4) := column_entry G 4 _ r

/-- The broadcast sample count is the literal at every row. -/
theorem countVec_apply (r : Fin 64) : countVec (ix1 r) = nE := rfl

/-- Row `r`'s quotient from the array's five entries of the row. -/
theorem rowQuotients_apply (G : FVec Ideal S64x5 .f32) (r : Fin 64) :
    rowQuotients G (ix1 r)
      = rowTerm (G (ix2 r 2) - Ideal.div (G (ix2 r 0) * G (ix2 r 1)) nE)
          (G (ix2 r 4) - Ideal.div (G (ix2 r 1) * G (ix2 r 1)) nE)
          (G (ix2 r 3) - Ideal.div (G (ix2 r 0) * G (ix2 r 0)) nE) := by
  show Ideal.div (column2 G (ix1 r) - Ideal.div (column0 G (ix1 r) * column1 G (ix1 r)) (countVec (ix1 r)))
      (Ideal.sqrt (column4 G (ix1 r) - Ideal.div (column1 G (ix1 r) * column1 G (ix1 r)) (countVec (ix1 r)))
        * Ideal.sqrt (column3 G (ix1 r) - Ideal.div (column0 G (ix1 r) * column0 G (ix1 r)) (countVec (ix1 r)))) = _
  rw [column0_apply, column1_apply, column2_apply, column3_apply, column4_apply, countVec_apply]
  rfl

/-- A vector of 64 is indexed by its one coordinate. -/
def rowEquiv : S64.Idx ≃ Fin 64 where
  toFun i := i 0
  invFun r := ix1 r
  left_inv i := (eq_ix1 i).symm
  right_inv _ := rfl

/-- The tail's one entry: minus (zero plus the sum of the 64 row quotients). -/
theorem tail_apply (G : FVec Ideal S64x5 .f32) (i : S_.Idx) :
    tail G i = -(zeroE + ∑ r : Fin 64, rowQuotients G (ix1 r)) := by
  show -(Host.reduceAdd (F := Ideal) (rowQuotients G) (constant (F := Ideal) S_ .f32 0x00000000#32) reducesTo_S64_S_d0 h_S_ i) = _
  rw [hostReduceAdd_apply, Ideal.hostReduceAdd_total reducesTo_S64_S_d0 (fun b => b.elim0)]
  refine congrArg Neg.neg (congrArg (zeroE + ·) ?_)
  exact Fintype.sum_equiv rowEquiv _ _ fun i => congrArg (rowQuotients G) (eq_ix1 i)

/-- Entry `(r, j)` of the statistics array. -/
theorem statsArray_apply (c : Dev nD) (r : Fin 64) (j : Fin 5) :
    statsArray m c (ix2 r j) = kStat (arg0 m c) (arg1 m c) r j := rfl

/-- The tail of the statistics array is the kernel's loss. -/
theorem tail_stats (c : Dev nD) : tail (statsArray m c) = fun _ => kLoss (arg0 m c) (arg1 m c) := by
  funext i
  rw [tail_apply]
  unfold kLoss
  refine congrArg Neg.neg (congrArg (zeroE + ·) (Finset.sum_congr rfl fun r _ => ?_))
  rw [rowQuotients_apply]
  unfold kRow
  rw [statsArray_apply, statsArray_apply, statsArray_apply, statsArray_apply, statsArray_apply]

/-- Every weakly fair execution of the idealized kernel ends with the result at `kLoss` of the arguments. -/
theorem run : θ_run defs (onTc (τ := τ) (main (F := Ideal))) ⟨m, fun _ => 0, ρ⟩ fun r => ∀ c : Dev nD,
      r.2.mem ((c.tc : Thread nD τ).loc main_v30)
          = (fun _ => kLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v30 (Pipeline.mem_restRefs_of main_v30 (by decide) (by decide))).trans ((tail_result m c).trans (tail_stats m c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KValue

end
-- ==== Proof.lean ====
/- The five claims, assembled.

   The three frames: the two kernels' are the generated frame runs; the reference's is its generated run with the
   result dropped. The idealization rewrote nothing, so `preserves` is trivial.

   The algebraic claim: the idealized kernel ends with its result at the closed form `kLoss` of its two argument
   arrays (the raw statistics ∑x0, ∑x1, ∑x0·x1, ∑x0², ∑x1² per (batch, shot) row, then
   cross − and energies by subtracting the product of sums over N), the reference with its result at `rLoss`
   (means, centred planes, centred sums). The precondition makes every entry of both arrays a real number, and on
   real arrays the two closed forms are the same extended real: ∑(y − ȳ)(x − x̄) = ∑xy − (∑x)(∑y)/N, row by row. -/
import proofs.«130764_j17222818857434_1_alg».proof.Defs
import proofs.«130764_j17222818857434_1_alg».proof.Proof.Gen.Kernel
import proofs.«130764_j17222818857434_1_alg».proof.Proof.Gen.Kernel.Skeleton
import proofs.«130764_j17222818857434_1_alg».proof.Proof.Gen.Kernel.Launch
import proofs.«130764_j17222818857434_1_alg».proof.Proof.Gen.Kernel.Points
import proofs.«130764_j17222818857434_1_alg».proof.Proof.Gen.Kernel.Frame
import proofs.«130764_j17222818857434_1_alg».proof.Proof.Gen.KernelIdeal
import proofs.«130764_j17222818857434_1_alg».proof.Proof.Gen.KernelIdeal.Skeleton
import proofs.«130764_j17222818857434_1_alg».proof.Proof.Gen.KernelIdeal.Launch
import proofs.«130764_j17222818857434_1_alg».proof.Proof.Gen.KernelIdeal.Points
import proofs.«130764_j17222818857434_1_alg».proof.Proof.Gen.KernelIdeal.Frame
import proofs.«130764_j17222818857434_1_alg».proof.Proof.Gen.ReferenceIdeal
import proofs.«130764_j17222818857434_1_alg».proof.Proof.Gen.Pre_finite_inputs
import proofs.«130764_j17222818857434_1_alg».proof.Proof.Gen.ReferenceIdeal.Run
import proofs.«130764_j17222818857434_1_alg».proof.Proof.Gen.ReferenceIdeal.Read
import proofs.«130764_j17222818857434_1_alg».proof.Proof.Spec
import proofs.«130764_j17222818857434_1_alg».proof.Proof.Finite
import proofs.«130764_j17222818857434_1_alg».proof.Proof.RefValue
import proofs.«130764_j17222818857434_1_alg».proof.Proof.LossAlgebra
import proofs.«130764_j17222818857434_1_alg».proof.Proof.KernelValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel ends at `kLoss` of its arguments, the reference at `rLoss` of arguments that agree with them; the
    precondition makes the arguments real-valued, where the two agree. -/
theorem algebraic : Cert.algebraic_KernelIdeal_ReferenceIdeal := by
  intro m ρ m' ρ' hpre hagree
  refine ⟨fun c => fun _ => Cert.Stats.kLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨x0, x1, h0, h1⟩ := Cert.Stats.finite_of_pre _ _ (hpre c)
  refine (Cert.ReferenceIdeal.Read.val_main_v23_eq (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))).trans ?_
  refine (Cert.Stats.ref_value _ _).trans ?_
  funext _
  show Cert.Stats.rLoss _ _ = Cert.Stats.kLoss _ _
  rw [(hagree c).1, (hagree c).2, h0, h1]
  exact (Cert.Stats.loss_eq x0 x1).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
